-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x64 .f32) (main_arg1 : FVec F S16384x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x64 : Shape := ⟨2, ![16384, 64]⟩
abbrev S16384x1 : Shape := ⟨2, ![16384, 1]⟩
abbrev S128x64 : Shape := ⟨2, ![128, 64]⟩
abbrev S128x1 : Shape := ⟨2, ![128, 1]⟩
abbrev S64x16384 : Shape := ⟨2, ![64, 16384]⟩
abbrev S128x16384 : Shape := ⟨2, ![128, 16384]⟩
abbrev S128 : Shape := ⟨1, ![128]⟩
abbrev S1x64 : Shape := ⟨2, ![1, 64]⟩
abbrev S1x16384 : Shape := ⟨2, ![1, 16384]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x1, .f32⟩
  | .hbm, ⟨3, _⟩ => ⟨S16384x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S128x64, .f32⟩
  | .local _ .vmem, ⟨1, _⟩ => ⟨S128x64, .f32⟩
  | .local _ .vmem, ⟨2, _⟩ => ⟨S16384x64, .f32⟩
  | .local _ .vmem, ⟨3, _⟩ => ⟨S128x1, .f32⟩
  | .local _ .vmem, ⟨4, _⟩ => ⟨S128x1, .f32⟩
  | .local _ .vmem, ⟨5, _⟩ => ⟨S128x64, .f32⟩
  | .local _ .vmem, ⟨6, _⟩ => ⟨S128x64, .f32⟩
  | .local _ .vmem, ⟨7, _⟩ => ⟨S16384x64, .f32⟩
  | .local _ .vmem, ⟨8, _⟩ => ⟨S128x1, .f32⟩
  | .local _ .vmem, ⟨9, _⟩ => ⟨S128x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S128x64_S128x64_0_0 : ∀ a, (![0, 0] : Fin 2 → Nat) a + S128x64.size a ≤ S128x64.size a
  h_S128x64 : 0 < S128x64.numel
  inb_S16384x64_S16384x64_0_0 : ∀ a, (![0, 0] : Fin 2 → Nat) a + S16384x64.size a ≤ S16384x64.size a
  h_S16384x64 : 0 < S16384x64.numel
  bitsLt_bf16_f32 : FTy.bits .bf16 < FTy.bits .f32
  transposes_S16384x64_p1_0_S64x16384 : S16384x64.Transposes [1, 0] S64x16384
  reduces_S128x64_S128 : S128x64.Reduces [1] S128
  shapeCasts_S128_S128x1 : S128.ShapeCasts S128x1
  broadcasts_S128x1_S128x16384 : S128x1.Broadcasts S128x16384
  broadcasts_S1x16384_S128x16384 : S1x16384.Broadcasts S128x16384
  reduces_S128x16384_S128 : S128x16384.Reduces [1] S128
  inb_S128x1_S128x1_0_0 : ∀ a, (![0, 0] : Fin 2 → Nat) a + S128x1.size a ≤ S128x1.size a
  h_S128x1 : 0 < S128x1.numel
  reducesTo_S16384x1_S_d0_1 : S16384x1.ReducesTo [0, 1] S_
  h_S_ : 0 < S_.numel
  dot_S128x64_S64x16384_S128x16384_1_0_0_1_n_n_wf : DotDims.WF S128x64 S64x16384 S128x16384 [1] [0] [0] [1] [] []
  dot_S1x64_S64x16384_S1x16384_1_0_0_1_n_n_wf : DotDims.WF S1x64 S64x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S16384x64.size a
  hwx0_0 : ∀ i : grid0.Coords, EltTy.bits .f32 = 32 ∨ (Rect.block (s := S16384x64) S128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .f32 = 32 ∨ (Rect.block (s := S16384x64) S16384x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S16384x1.size a
  hwx0_2 : ∀ i : grid0.Coords, EltTy.bits .f32 = 32 ∨ (Rect.block (s := S16384x1) S128x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S16384x64.size a
  hwx1_0 : ∀ i : grid1.Coords, EltTy.bits .f32 = 32 ∨ (Rect.block (s := S16384x64) S128x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .f32 = 32 ∨ (Rect.block (s := S16384x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S16384x1.size a
  hwx1_2 : ∀ i : grid1.Coords, EltTy.bits .f32 = 32 ∨ (Rect.block (s := S16384x1) S128x1.size (cc1_transform_2 i) (hinb1_2 i)).WholeWords (EltTy.packing .f32)

variable [Facts₀]

def dot_S128x64_S64x16384_S128x16384_1_0_0_1_n_n : DotDims S128x64 S64x16384 S128x16384 where
  lhsContracting := [1]
  rhsContracting := [0]
  lhsNonContracting := [0]
  rhsNonContracting := [1]
  lhsBatch := []
  rhsBatch := []
  wf := dot_S128x64_S64x16384_S128x16384_1_0_0_1_n_n_wf
def dot_S1x64_S64x16384_S1x16384_1_0_0_1_n_n : DotDims S1x64 S64x16384 S1x16384 where
  lhsContracting := [1]
  rhsContracting := [0]
  lhsNonContracting := [0]
  rhsNonContracting := [1]
  lhsBatch := []
  rhsBatch := []
  wf := dot_S1x64_S64x16384_S1x16384_1_0_0_1_n_n_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S64x16384 : Shape := ⟨2, ![64, 16384]⟩
abbrev S32768 : Shape := ⟨1, ![32768]⟩

abbrev nBuf : Space → Nat
  | .hbm => 32
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x64, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S64x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S32768, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x64_S64x16384_1_0 : S16384x64.Transposes [1, 0] S64x16384
  bcast_S_S16384x16384 : S_.BroadcastsInDim S16384x16384 (![] : Fin 0 → Fin S16384x16384.rank)
  reducesTo_S16384x16384_S16384_d0 : S16384x16384.ReducesTo [0] S16384
  reducesTo_S16384x16384_S16384_d1 : S16384x16384.ReducesTo [1] S16384
  concatenates_S16384_S16384_S32768_d0 : Shape.Concatenates [S16384, S16384] S32768 0
  reducesTo_S32768_S_d0 : S32768.ReducesTo [0] S_
  dot_S16384x64_S64x16384_S16384x16384_1_0_0_1_n_n_wf : DotDims.WF S16384x64 S64x16384 S16384x16384 [1] [0] [0] [1] [] []

variable [Facts₀]

def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.LibMinReduce.lean ====
/-
  A float `vector.multi_reduction <minimumf>` over ONE axis, read at the ideal values: at each kept index it is the
  fold of `min`, from the accumulator's value, over that axis's coordinates (the companion of the library's reading
  of `<maximumf>`). Any rank, axis and extents.
-/
import Idealize.ShloMosaic.PureOps.Ideal.Laws

namespace Idealize.ShloMosaic.Ideal

variable {φ : FTy}

theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibColSum.lean ====
/-
  Row sums kept as a column, read at an entry (a general lemma: nothing here depends on a program).

  A column [A, 1] broadcast to B columns holds at (p, q) the column's entry p.  The sums along the rows of an [A, K]
  matrix, laid out as a column [A, 1], hold at (p, 0) the sum over k < K of the matrix at (p, k): the form a kernel
  gives a sum over the last axis that keeps that axis with extent one.  The accumulator fact is stated as the
  equation of two zero words, the form in which a printed reduction carries it.
-/
import proofs.«107086_j86002425135442_1_alg».proof.Proof.LibLayoutCol
import proofs.«107086_j86002425135442_1_alg».proof.Proof.LibAxisSum
import Idealize.ShloMosaic.Lib.ValueIdx
import Idealize.ShloMosaic.Lib.Pipeline.Value
import Idealize.ShloMosaic.PureOps.Ideal.Laws

noncomputable section

open scoped BigOperators

namespace Cert.Lib.ColSum

open Idealize.ShloMosaic Idealize.ShloMosaic.ValueIdx

/-- A column [A, 1] broadcast to B columns, at (p, q), is the column at p. -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

/-- The sums along the rows of a matrix, laid out as a column: at (p, 0) the sum of row p. -/
theorem rowSumCol_apply {A K : Nat} (src : FVec Ideal ⟨2, ![A, K]⟩ .f32)
    (h : (⟨2, ![A, K]⟩ : Shape).Reduces [1] ⟨1, ![A]⟩) (hφ : FKind.Formats .f32) (hacc : (0x00000000#32 : BitVec 32) = 0x00000000#32)
    (hc : (⟨1, ![A]⟩ : Shape).ShapeCasts ⟨2, ![A, 1]⟩) (p : Fin A) (z : Fin 1) :
    shapeCast ⟨2, ![A, 1]⟩ (multiReduction .add [1] ⟨1, ![A]⟩ src 0x00000000#32 h hφ hacc) hc (ix2 p z)
      = ∑ k : Fin K, (src (ix2 p k) : EReal) := by
  exact (Cert.Lib.LayoutCol.colCast_apply _ hc p z).trans (Cert.Lib.AxisSum.rowSum_apply src 0x00000000#32 h hφ hacc p)

end Cert.Lib.ColSum

end
-- ==== Proof.LibColToRow.lean ====
/-
  A column laid out again as a row and repeated down the rows, read at an entry (a general lemma: nothing here depends
  on a program).

  A column [A, 1] and a row [1, A] hold the same A entries in the same row-major order, so the row at (0, q) is the
  column at (q, 0).  A row [1, A] broadcast to B rows holds at (p, q) the row's entry q.  Together: a column turned into
  a row and broadcast to [B, A] holds at (p, q) the column's entry q — the value that depends on the column index
  alone.  Any sizes A, B.
-/
import Idealize.ShloMosaic.Lib.ValueIdx
import Idealize.ShloMosaic.Lib.Pipeline.Value

noncomputable section

namespace Cert.Lib.ColToRow

open Idealize.ShloMosaic Idealize.ShloMosaic.ValueIdx

/-- The row [1, A] made of a column [A, 1], at (0, q), is the column at (q, 0). -/
theorem colAsRow_apply {α : Type} {A : Nat} (c : (⟨2, ![A, 1]⟩ : Shape).Idx → α)
    (h : (⟨2, ![A, 1]⟩ : Shape).ShapeCasts ⟨2, ![1, A]⟩) (z : Fin 1) (q : Fin A) :
    shapeCast ⟨2, ![1, A]⟩ c h (ix2 z q) = c (ix2 q (0 : Fin 1)) := by
  refine shapeCast_apply c h (ix2 z q) (ix2 q (0 : Fin 1)) ?_
  rw [Shape.rowMajor_val_two, Shape.rowMajor_val_two]
  obtain rfl : z = 0 := Subsingleton.elim _ _
  show q.val * 1 + 0 = 0 * A + q.val
  omega

/-- A row [1, A] broadcast to B rows, at (p, q), is the row at (0, q). -/
theorem bcastRowMat_apply {α : Type} {A B : Nat} (r : (⟨2, ![1, A]⟩ : Shape).Idx → α)
    (h : (⟨2, ![1, A]⟩ : Shape).Broadcasts ⟨2, ![B, A]⟩) (p : Fin B) (q : Fin A) :
    broadcastTo ⟨2, ![B, A]⟩ r h (ix2 p q) = r (ix2 (0 : Fin 1) q) := by
  refine broadcastTo_apply r h (ix2 p q) (ix2 (0 : Fin 1) q) ?_
  intro a
  match a with
  | ⟨0, _⟩ => simp
  | ⟨1, _⟩ =>
    show q.val = if A = 1 then 0 else q.val
    split
    · have := q.isLt; omega
    · rfl

/-- A column turned into a row and broadcast to B rows, at (p, q), is the column at (q, 0). -/
theorem colAsRowBcast_apply {α : Type} {A B : Nat} (c : (⟨2, ![A, 1]⟩ : Shape).Idx → α)
    (h1 : (⟨2, ![A, 1]⟩ : Shape).ShapeCasts ⟨2, ![1, A]⟩) (h2 : (⟨2, ![1, A]⟩ : Shape).Broadcasts ⟨2, ![B, A]⟩)
    (p : Fin B) (q : Fin A) :
    broadcastTo ⟨2, ![B, A]⟩ (shapeCast ⟨2, ![1, A]⟩ c h1) h2 (ix2 p q) = c (ix2 q (0 : Fin 1)) :=
  (bcastRowMat_apply _ h2 p q).trans (colAsRow_apply c h1 0 q)

end Cert.Lib.ColToRow

end
-- ==== Proof.Payload.lean ====
/-
  The kernel body's arithmetic read at one entry, at the ideal values.

  The body takes a block x0 of 128 points and a cloud x1 of 16384 points, each of 64 coordinates, and keeps for row p
  the minimum over the cloud's points j of sqrt (max ((|x0_p|² + |x1_j|²) − 2 · x0_p·x1_j, 0)).  The row's squared
  length |x0_p|² is a sum along the row, kept as a column and repeated along the columns; the cloud's squared lengths
  |x1_j|² are a row of ones times the transposed squares, repeated down the rows; the inner products x0_p·x1_j are the
  product of the block with the transposed cloud.  At the ideal values a change of format is the identity and the
  half-width word of one is the number one, so each of the three is the plain sum over the 64 coordinates.
-/
import proofs.«107086_j86002425135442_1_alg».proof.Proof.Gen.KernelIdeal.Skeleton
import proofs.«107086_j86002425135442_1_alg».proof.Proof.LibMinReduce
import proofs.«107086_j86002425135442_1_alg».proof.Proof.LibMatmul
import proofs.«107086_j86002425135442_1_alg».proof.Proof.LibColSum
import proofs.«107086_j86002425135442_1_alg».proof.Proof.LibColToRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Chamfer.Payload
open Idealize.ShloMosaic Idealize.ShloMosaic.ValueIdx Cert.KernelIdeal Cert.KernelIdeal.Gen

/-- For row p of a block x0 of 128 points and a cloud x1 of 16384 points: the minimum over x1's points j, from the word +∞, of
    sqrt (max ((|x0_p|² + |x1_j|²) − 2 · x0_p·x1_j, 0)), the words 2.0 and 0.0 kept as printed. -/
def blockNearest (x0 : (⟨2, ![128, 64]⟩ : Shape).Idx → EReal) (x1 : (⟨2, ![16384, 64]⟩ : Shape).Idx → EReal) (p : Fin 128) : EReal :=
  (Finset.univ : Finset (Fin 16384)).fold min (Ideal.ofBits .f32 0x7F800000#32) (fun j =>
    Ideal.sqrt (max (((∑ k : Fin 64, x0 (ix2 p k) * x0 (ix2 p k)) + ∑ k : Fin 64, x1 (ix2 j k) * x1 (ix2 j k))
        - Ideal.ofBits .f32 0x40000000#32 * ∑ k : Fin 64, x0 (ix2 p k) * x1 (ix2 j k))
      (Ideal.ofBits .f32 0x00000000#32)))

/-- The half-width word 0x3F80 is the number one. -/
theorem one_bf16 : Ideal.ofBits .bf16 0x3F80#16 = 1 := IdealRules.sign_bit.ideal_onePat .bf16

/-- A minimum-reduction of an [A, K] matrix along each row: at p, the fold of min, from the accumulator's value, over
    the row's K entries. -/
theorem rowMin_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.minimumf.neutral φ hφ)
    (p : Fin A) :
    multiReduction .minimumf [1] ⟨1, ![A]⟩ src acc h hφ hacc (ix1 p)
      = (Finset.univ : Finset (Fin K)).fold min (Ideal.ofBits φ acc) (fun k => (src (ix2 p k) : EReal)) := by
  rw [Ideal.multiReduction_minimumf_single]
  refine congrArg (fun f => Finset.fold min (Ideal.ofBits φ acc) f (Finset.univ : Finset (Fin K))) (funext fun k => ?_)
  refine congrArg src ?_
  funext a
  match a with
  | ⟨0, _⟩ => rfl
  | ⟨1, _⟩ => rfl

/-- The row's squared length, as the body lays it out: the row sums of the squares, as a column, repeated along the
    columns. -/
theorem normRow (x0 : Vec Ideal S128x64 .f32) (p : Fin 128) (j : Fin 16384) :
    broadcastTo S128x16384
        (shapeCast S128x1 (multiReduction (F := Ideal) .add [1] S128 (mulf (F := Ideal) x0 x0) 0x00000000#32 reduces_S128x64_S128 (.inl rfl) rfl)
          shapeCasts_S128_S128x1)
        broadcasts_S128x1_S128x16384 (ix2 p j)
      = ∑ k : Fin 64, x0 (ix2 p k) * x0 (ix2 p k) :=
  (Cert.Lib.ColSum.bcastColMat_apply _ broadcasts_S128x1_S128x16384 p j).trans
    (Cert.Lib.ColSum.rowSumCol_apply (mulf (F := Ideal) x0 x0) reduces_S128x64_S128 (.inl rfl) rfl shapeCasts_S128_S128x1 p 0)

/-- The cloud's squared lengths, as the body lays them out: a row of ones times the transposed squares, repeated down
    the rows. -/
theorem normCol (x1 : Vec Ideal S16384x64 .f32) (p : Fin 128) (j : Fin 16384) :
    broadcastTo S128x16384
        (matmul (F := Ideal) dot_S1x64_S64x16384_S1x16384_1_0_0_1_n_n none
          (broadcast S1x64 (Scalar.ofBits (F := Ideal) .bf16 0x3F80#16))
          (transpose S64x16384 [1, 0] (truncf (F := Ideal) .bf16 (mulf (F := Ideal) x1 x1) bitsLt_bf16_f32) transposes_S16384x64_p1_0_S64x16384)
          (constant S1x16384 .f32 0x00000000#32))
        broadcasts_S1x16384_S128x16384 (ix2 p j)
      = ∑ k : Fin 64, x1 (ix2 j k) * x1 (ix2 j k) := by
  refine (Cert.Lib.ColToRow.bcastRowMat_apply _ broadcasts_S1x16384_S128x16384 p j).trans ?_
  refine (Cert.Lib.Matmul.matmul_zero_apply (A := 1) (K := 64) (C := 16384) none _ _ 0 j).trans ?_
  refine Finset.sum_congr rfl fun k _ => ?_
  refine (congrArg₂ (· * ·) one_bf16 (transpose_ix2_apply _ transposes_S16384x64_p1_0_S64x16384 k j)).trans ?_
  exact one_mul _

/-- The inner products, as the body lays them out: the block times the transposed cloud. -/
theorem innerProd (x0 : Vec Ideal S128x64 .f32) (x1 : Vec Ideal S16384x64 .f32) (p : Fin 128) (j : Fin 16384) :
    matmul (F := Ideal) dot_S128x64_S64x16384_S128x16384_1_0_0_1_n_n none
        (truncf (F := Ideal) .bf16 x0 bitsLt_bf16_f32)
        (transpose S64x16384 [1, 0] (truncf (F := Ideal) .bf16 x1 bitsLt_bf16_f32) transposes_S16384x64_p1_0_S64x16384)
        (constant S128x16384 .f32 0x00000000#32) (ix2 p j)
      = ∑ k : Fin 64, x0 (ix2 p k) * x1 (ix2 j k) := by
  refine (Cert.Lib.Matmul.matmul_zero_apply (A := 128) (K := 64) (C := 16384) none _ _ p j).trans ?_
  refine Finset.sum_congr rfl fun k _ => ?_
  exact congrArg (x0 (ix2 p k) * ·) (transpose_ix2_apply _ transposes_S16384x64_p1_0_S64x16384 k j)

/-- The first call's body at row p: the nearest distance from x0's point p to the cloud x1. -/
theorem pay0_apply (x0 : Vec Ideal S128x64 .f32) (x1 : Vec Ideal S16384x64 .f32) (p : Fin 128) (z : Fin 1) :
    k0_pay1 (F := Ideal) x0 x1 (ix2 p z) = blockNearest x0 x1 p := by
  unfold k0_pay1
  refine (Cert.Lib.LayoutCol.colCast_apply _ shapeCasts_S128_S128x1 p z).trans ?_
  refine (rowMin_apply _ _ reduces_S128x16384_S128 (.inl rfl) rfl p).trans ?_
  refine congrArg (fun f => Finset.fold min (Ideal.ofBits .f32 0x7F800000#32) f (Finset.univ : Finset (Fin 16384))) (funext fun j => ?_)
  exact congrArg Ideal.sqrt (congrArg₂ max
    (congrArg₂ (· - ·) (congrArg₂ (· + ·) (normRow x0 p j) (normCol x1 p j))
      (congrArg (Ideal.ofBits .f32 0x40000000#32 * ·) (innerProd x0 x1 p j)))
    rfl)

/-- The second call's body is the same text. -/
theorem pay1_apply (x0 : Vec Ideal S128x64 .f32) (x1 : Vec Ideal S16384x64 .f32) (p : Fin 128) (z : Fin 1) :
    k1_pay1 (F := Ideal) x0 x1 (ix2 p z) = blockNearest x0 x1 p := by
  show k0_pay1 (F := Ideal) x0 x1 (ix2 p z) = _
  exact pay0_apply x0 x1 p z

end Cert.Chamfer.Payload

end
-- ==== Proof.Spec.lean ====
/-
  The Chamfer distance of two clouds of 16384 points in 64 dimensions, over the extended reals.

  For clouds x and y (one point per row) the squared length of point i is the sum of the squares of its
  coordinates, the inner product of point i of x with point j of y the sum of the coordinate products, and the
  distance of the two points the square root of  max (|x_i|² + |y_j|² − 2 · x_i·y_j, 0).  The nearest-neighbour
  distance of point i of x in y is the minimum of those distances over j, taken from +∞.  The Chamfer distance is
  the mean of the 32768 nearest-neighbour distances, those of x in y and those of y in x.

  The distance is symmetric, dist x y i j = dist y x j i, because + and · commute on the extended reals (no
  finiteness is needed for that); so "the minimum over the points of x of the distance to point j of y" is the
  nearest-neighbour distance of point j of y in x.
-/
import Idealize.ShloMosaic.Lib.ValueIdx
import Idealize.ShloMosaic.PureOps.Ideal.Laws

noncomputable section

open scoped BigOperators

namespace Cert.Chamfer

open Idealize.ShloMosaic Idealize.ShloMosaic.ValueIdx

/-- A cloud: 16384 points, 64 coordinates each, one point per row. -/
abbrev Cloud : Type := (⟨2, ![16384, 64]⟩ : Shape).Idx → EReal

/-- The squared length of point i. -/
def normSq (x : Cloud) (i : Fin 16384) : EReal := ∑ k : Fin 64, x (ix2 i k) * x (ix2 i k)

/-- The inner product of point i of x with point j of y. -/
def inner (x y : Cloud) (i j : Fin 16384) : EReal := ∑ k : Fin 64, x (ix2 i k) * y (ix2 j k)

/-- The distance of point i of x from point j of y, by the expansion of the square; the words 2.0 and 0.0 are
    kept as the words both programs print. -/
def dist (x y : Cloud) (i j : Fin 16384) : EReal :=
  Ideal.sqrt (max ((normSq x i + normSq y j) - Ideal.ofBits .f32 0x40000000#32 * inner x y i j)
    (Ideal.ofBits .f32 0x00000000#32))

/-- The distance from point i of x to the nearest point of y: the minimum over y's points, from the word +∞. -/
def nearest (x y : Cloud) (i : Fin 16384) : EReal :=
  (Finset.univ : Finset (Fin 16384)).fold min (Ideal.ofBits .f32 0x7F800000#32) (fun j => dist x y i j)

theorem inner_comm (x y : Cloud) (i j : Fin 16384) : inner x y i j = inner y x j i :=
  Finset.sum_congr rfl fun k _ => mul_comm _ _

/-- The distance is symmetric. -/
theorem dist_comm (x y : Cloud) (i j : Fin 16384) : dist x y i j = dist y x j i := by
  unfold dist
  rw [inner_comm x y i j, add_comm (normSq x i) (normSq y j)]

/-- The minimum over the points of x of their distance to point j of y is the nearest-neighbour distance of
    point j of y in x. -/
theorem nearest_swap (x y : Cloud) (j : Fin 16384) :
    (Finset.univ : Finset (Fin 16384)).fold min (Ideal.ofBits .f32 0x7F800000#32) (fun i => dist x y i j)
      = nearest y x j := by
  have e : (fun i => dist x y i j) = (fun i => dist y x j i) := funext fun i => dist_comm x y i j
  unfold nearest
  rw [e]

/-- The Chamfer distance: the 32768 nearest-neighbour distances summed, each cloud's sum taken from the word 0.0,
    and the total divided by the word 32768.0. -/
def chamfer (x y : Cloud) : EReal :=
  Ideal.div ((Ideal.ofBits .f32 0x00000000#32 + ∑ i : Fin 16384, nearest x y i)
      + (Ideal.ofBits .f32 0x00000000#32 + ∑ j : Fin 16384, nearest y x j))
    (Ideal.ofBits .f32 0x47000000#32)

end Cert.Chamfer

end
-- ==== Proof.Blocks0.lean ====
/-
  What the two nearest-neighbour calls leave in their result arrays.

  Each call runs its body once per block of 128 rows of its "row" cloud, the whole "column" cloud beside it, and
  writes back 128 numbers: for row p of the block, the minimum over the column cloud's points of the distance to
  them.  The row window's block at grid point t is rows 128 t … 128 t + 127 of its array and the column window's
  block is always the whole array, so what point t writes back is rows 128 t … 128 t + 127 of ONE column: row r
  holds the nearest-neighbour distance of the row cloud's point r in the column cloud.  The 128 blocks tile the
  16384 rows (row r is in block r / 128), so after the call the result array IS that column.  The first call has
  the first cloud as rows and the second as columns; the second call the other way round.
  Stated at any contents V of the buffers when the call is entered.
-/
import proofs.«107086_j86002425135442_1_alg».proof.Proof.Gen.KernelIdeal.Frame
import proofs.«107086_j86002425135442_1_alg».proof.Proof.Payload
import proofs.«107086_j86002425135442_1_alg».proof.Proof.Spec
import Idealize.ShloMosaic.Lib.Pipeline.Value
import Idealize.ShloMosaic.Lib.ValueIdx

set_option maxRecDepth 16384

noncomputable section

namespace Cert.Chamfer.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Chamfer

theorem hz : (![0, 0] : Fin 2 → Nat) = fun _ => 0 := funext fun a => by fin_cases a <;> rfl

/-- 16384 numbers as the one column of a [16384, 1] array. -/
def asCol (f : Fin 16384 → EReal) : S16384x1.Idx → EReal := fun i => f ⟨(i 0).val, (i 0).isLt⟩

/-- The body's result for a block x0 that is rows r0 … r0 + 127 of a cloud X, beside a block x1 that is the whole
    cloud Y: entry (p, ·) is the nearest-neighbour distance of X's point r0 + p in Y. -/
theorem rows_nearest (X Y : Cloud) (x0 : Vec Ideal S128x64 .f32) (x1 : Vec Ideal S16384x64 .f32) (r0 : Nat)
    (h0 : ∀ (p : Fin 128) (k : Fin 64) (hp : r0 + p.val < 16384), x0 (ix2 p k) = X (ix2 ⟨r0 + p.val, hp⟩ k))
    (h1 : ∀ (j : Fin 16384) (k : Fin 64), x1 (ix2 j k) = Y (ix2 j k))
    (y : S128x1.Idx) (hy : r0 + (y 0).val < 16384) :
    k0_pay1 (F := Ideal) x0 x1 y = nearest X Y ⟨r0 + (y 0).val, hy⟩ := by
  obtain ⟨p, z, rfl⟩ : ∃ (p : Fin 128) (z : Fin 1), y = ix2 p z := ⟨y 0, y 1, eq_ix2 y⟩
  rw [Payload.pay0_apply]
  unfold Payload.blockNearest nearest dist normSq inner
  simp only [h0 _ _ hy, h1]

/-- The same for the second call's body, which is the same text. -/
theorem rows_nearest' (X Y : Cloud) (x0 : Vec Ideal S128x64 .f32) (x1 : Vec Ideal S16384x64 .f32) (r0 : Nat)
    (h0 : ∀ (p : Fin 128) (k : Fin 64) (hp : r0 + p.val < 16384), x0 (ix2 p k) = X (ix2 ⟨r0 + p.val, hp⟩ k))
    (h1 : ∀ (j : Fin 16384) (k : Fin 64), x1 (ix2 j k) = Y (ix2 j k))
    (y : S128x1.Idx) (hy : r0 + (y 0).val < 16384) :
    k1_pay1 (F := Ideal) x0 x1 y = nearest X Y ⟨r0 + (y 0).val, hy⟩ := by
  obtain ⟨p, z, rfl⟩ : ∃ (p : Fin 128) (z : Fin 1), y = ix2 p z := ⟨y 0, y 1, eq_ix2 y⟩
  rw [Payload.pay1_apply]
  unfold Payload.blockNearest nearest dist normSq inner
  simp only [h0 _ _ hy, h1]

variable (V : (c : Dev nD) → (b : Ref sig .tc) → Buf (Elt Ideal) ((c : Thread nD τ).loc b))

/-! ## The first call: the rows of the first cloud against the whole second cloud -/

/-- The printed index maps at a grid point, decided over the 128 points: block t of the row window and of the result
    window starts at row 128 t, and the column window is always the whole array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point t is rows 128 t … 128 t + 127 of its array. -/
theorem rows0_apply (c : Dev nD) (t : Fin cfg0.N) (x : S128x64.Idx) (k : S16384x64.Idx)
    (hk0 : (k 0).val = 128 * t.val + (x 0).val) (hk1 : (k 1).val = (x 1).val) :
    (iblk0 V c 0 t : Vec Ideal S128x64 .f32) x = (V c main_arg0 : S16384x64.Idx → EReal) k := by
  obtain ⟨e00, e01, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 2) * 128 + 1 * (x 0).val = (k 0).val; rw [e00, hk0]; omega
  | ⟨1, _⟩ => show win0_0.index t (1 : Fin 2) * 64 + 1 * (x 1).val = (k 1).val; rw [e01, hk1]; omega

/-- The column window's block at every point is its whole array. -/
theorem cols0_apply (c : Dev nD) (t : Fin cfg0.N) (x : S16384x64.Idx) :
    (iblk0 V c 1 t : Vec Ideal S16384x64 .f32) x = (V c main_arg1 : S16384x64.Idx → EReal) x := by
  obtain ⟨-, -, e10, e11, -⟩ := idx0 t
  unfold iblk0
  rw [View.read_apply]
  show V c main_arg1 _ = V c main_arg1 _
  refine congrArg (V c main_arg1) (funext fun a => Fin.ext ?_)
  match a with
  | ⟨0, _⟩ => show win0_1.index t (0 : Fin 2) * 16384 + 1 * (x 0).val = (x 0).val; rw [e10]; omega
  | ⟨1, _⟩ => show win0_1.index t (1 : Fin 2) * 64 + 1 * (x 1).val = (x 1).val; rw [e11]; omega

/-- The body at point t: entry (p, ·) of its result is the nearest-neighbour distance of the row cloud's point
    128 t + p in the column cloud. -/
theorem body0_at (c : Dev nD) (t : Fin cfg0.N) (y : S128x1.Idx) (hy : 128 * t.val + (y 0).val < 16384) :
    k0_pay1 (F := Ideal) (iblk0 V c 0 t) (iblk0 V c 1 t) y
      = nearest (V c main_arg0) (V c main_arg1) ⟨128 * t.val + (y 0).val, hy⟩ :=
  rows_nearest (V c main_arg0) (V c main_arg1) (iblk0 V c 0 t) (iblk0 V c 1 t) (128 * t.val)
    (fun p k hp => rows0_apply V c t (ix2 p k) (ix2 ⟨128 * t.val + p.val, hp⟩ k) rfl rfl)
    (fun j k => cols0_apply V c t (ix2 j k)) y hy

/-- What point t writes back is block t of any column G whose row r holds the nearest-neighbour distance of the row
    cloud's point r in the column cloud. -/
theorem flushed0 (c : Dev nD) (t : Fin cfg0.N) (G : S16384x1.Idx → EReal)
    (hG : ∀ (r : Fin 16384) (z : Fin 1), G (ix2 r z) = nearest (V c main_arg0) (V c main_arg1) r) :
    (dat0 V c).flushed 2 t = ((cfg0.win 2).blk t).view.read (Elt Ideal) G := by
  show (cfg0.win 2).cut (grid0.coords t) ((dat0 V c).after 2 t) = _
  rw [after0_2]
  unfold out0_2
  rw [View.canon_unit_zero hz]
  simp only [View.ld_unit_zero (S := S128x64) hz, View.ld_unit_zero (S := S16384x64) hz]
  obtain ⟨-, -, -, -, e20, e21⟩ := idx0 t
  have hN : t.val < 128 := Nat.lt_of_lt_of_eq t.isLt N_0
  funext y
  have hy : (y 0).val < 128 := (y 0).isLt
  have hy1 : (y 1).val < 1 := (y 1).isLt
  rw [View.read_apply]
  show k0_pay1 (F := Ideal) (iblk0 V c 0 t) (iblk0 V c 1 t) y = G (((cfg0.win 2).blk t).view.emb y)
  refine (body0_at V c t y (by omega)).trans ?_
  rw [show ((cfg0.win 2).blk t).view.emb y = ix2 (⟨128 * t.val + (y 0).val, by omega⟩ : Fin 16384) (0 : Fin 1) from
    funext fun a => Fin.ext (by
      match a with
      | ⟨0, _⟩ => show win0_2.index t (0 : Fin 2) * 128 + 1 * (y 0).val = 128 * t.val + (y 0).val; rw [e20]; omega
      | ⟨1, _⟩ => show win0_2.index t (1 : Fin 2) * 1 + 1 * (y 1).val = 0; rw [e21]; omega)]
  exact (hG _ _).symm

/-- An entry of the result array is in point t's block iff its coordinates are in the block's ranges. -/
theorem mem_blk0 (t : Fin cfg0.N) (i : S16384x1.Idx) :
    i ∈ ((cfg0.win 2).blk t).view.set ↔ ∀ a : Fin 2, win0_2.index t a * S128x1.size a ≤ (i a).val
      ∧ (i a).val < win0_2.index t a * S128x1.size a + S128x1.size a := by
  show i ∈ ((View.whole main_v0).slice (win0_2.rect t)).set ↔ _
  rw [View.set_slice_whole, Rect.mem_set_unit]
  exact Iff.rfl

/-- Row r of the result is written back by point r / 128: the 128 blocks tile the array. -/
theorem cover0 (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  have hN : cfg0.N = 128 := N_0
  obtain ⟨-, -, -, -, e20, e21⟩ := idx0 ⟨(i 0).val / 128, by rw [hN]; omega⟩
  refine ⟨⟨(i 0).val / 128, by rw [hN]; omega⟩, flush0_2 _, ?_⟩
  rw [mem_blk0]
  intro a
  match a with
  | ⟨0, _⟩ =>
    show win0_2.index ⟨(i 0).val / 128, _⟩ (0 : Fin 2) * 128 ≤ (i 0).val
      ∧ (i 0).val < win0_2.index ⟨(i 0).val / 128, _⟩ (0 : Fin 2) * 128 + 128
    rw [e20]; show (i 0).val / 128 * 128 ≤ (i 0).val ∧ (i 0).val < (i 0).val / 128 * 128 + 128; omega
  | ⟨1, _⟩ =>
    show win0_2.index ⟨(i 0).val / 128, _⟩ (1 : Fin 2) * 1 ≤ (i 1).val
      ∧ (i 1).val < win0_2.index ⟨(i 0).val / 128, _⟩ (1 : Fin 2) * 1 + 1
    rw [e21]; omega

/-- After the first call its result array holds, in row i, the distance from point i of the first cloud to the nearest
    point of the second. -/
theorem final0 (c : Dev nD) :
    (dat0 V c).arrAt 2 cfg0.N = asCol (nearest (V c main_arg0) (V c main_arg1)) :=
  (dat0 V c).arrAt_eq_of_cover 2 (asCol (nearest (V c main_arg0) (V c main_arg1)))
    (fun t _ => flushed0 V c t (asCol (nearest (V c main_arg0) (V c main_arg1))) (fun r z => rfl)) cover0
end Cert.Chamfer.Blocks

end
-- ==== Proof.Blocks1.lean ====
import proofs.«107086_j86002425135442_1_alg».proof.Proof.Blocks0

set_option maxRecDepth 16384

noncomputable section

namespace Cert.Chamfer.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Chamfer

variable (V : (c : Dev nD) → (b : Ref sig .tc) → Buf (Elt Ideal) ((c : Thread nD τ).loc b))

/-! ## The second call: the rows of the second cloud against the whole first cloud -/

/-- The printed index maps at a grid point, decided over the 128 points: block t of the row window and of the result
    window starts at row 128 t, and the column window is always the whole array. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row window's block at point t is rows 128 t … 128 t + 127 of its array. -/
theorem rows1_apply (c : Dev nD) (t : Fin cfg1.N) (x : S128x64.Idx) (k : S16384x64.Idx)
    (hk0 : (k 0).val = 128 * t.val + (x 0).val) (hk1 : (k 1).val = (x 1).val) :
    (iblk1 V c 0 t : Vec Ideal S128x64 .f32) x = (V c main_arg1 : S16384x64.Idx → EReal) k := by
  obtain ⟨e00, e01, -⟩ := idx1 t
  unfold iblk1
  rw [View.read_apply]
  show V c main_arg1 _ = V c main_arg1 _
  refine congrArg (V c main_arg1) (funext fun a => Fin.ext ?_)
  match a with
  | ⟨0, _⟩ => show win1_0.index t (0 : Fin 2) * 128 + 1 * (x 0).val = (k 0).val; rw [e00, hk0]; omega
  | ⟨1, _⟩ => show win1_0.index t (1 : Fin 2) * 64 + 1 * (x 1).val = (k 1).val; rw [e01, hk1]; omega

/-- The column window's block at every point is its whole array. -/
theorem cols1_apply (c : Dev nD) (t : Fin cfg1.N) (x : S16384x64.Idx) :
    (iblk1 V c 1 t : Vec Ideal S16384x64 .f32) x = (V c main_arg0 : S16384x64.Idx → EReal) x := by
  obtain ⟨-, -, e10, e11, -⟩ := idx1 t
  unfold iblk1
  rw [View.read_apply]
  show V c main_arg0 _ = V c main_arg0 _
  refine congrArg (V c main_arg0) (funext fun a => Fin.ext ?_)
  match a with
  | ⟨0, _⟩ => show win1_1.index t (0 : Fin 2) * 16384 + 1 * (x 0).val = (x 0).val; rw [e10]; omega
  | ⟨1, _⟩ => show win1_1.index t (1 : Fin 2) * 64 + 1 * (x 1).val = (x 1).val; rw [e11]; omega

/-- The body at point t: entry (p, ·) of its result is the nearest-neighbour distance of the row cloud's point
    128 t + p in the column cloud. -/
theorem body1_at (c : Dev nD) (t : Fin cfg1.N) (y : S128x1.Idx) (hy : 128 * t.val + (y 0).val < 16384) :
    k1_pay1 (F := Ideal) (iblk1 V c 0 t) (iblk1 V c 1 t) y
      = nearest (V c main_arg1) (V c main_arg0) ⟨128 * t.val + (y 0).val, hy⟩ :=
  rows_nearest' (V c main_arg1) (V c main_arg0) (iblk1 V c 0 t) (iblk1 V c 1 t) (128 * t.val)
    (fun p k hp => rows1_apply V c t (ix2 p k) (ix2 ⟨128 * t.val + p.val, hp⟩ k) rfl rfl)
    (fun j k => cols1_apply V c t (ix2 j k)) y hy

/-- What point t writes back is block t of any column G whose row r holds the nearest-neighbour distance of the row
    cloud's point r in the column cloud. -/
theorem flushed1 (c : Dev nD) (t : Fin cfg1.N) (G : S16384x1.Idx → EReal)
    (hG : ∀ (r : Fin 16384) (z : Fin 1), G (ix2 r z) = nearest (V c main_arg1) (V c main_arg0) r) :
    (dat1 V c).flushed 2 t = ((cfg1.win 2).blk t).view.read (Elt Ideal) G := by
  show (cfg1.win 2).cut (grid1.coords t) ((dat1 V c).after 2 t) = _
  rw [after1_2]
  unfold out1_2
  rw [View.canon_unit_zero hz]
  simp only [View.ld_unit_zero (S := S128x64) hz, View.ld_unit_zero (S := S16384x64) hz]
  obtain ⟨-, -, -, -, e20, e21⟩ := idx1 t
  have hN : t.val < 128 := Nat.lt_of_lt_of_eq t.isLt N_1
  funext y
  have hy : (y 0).val < 128 := (y 0).isLt
  have hy1 : (y 1).val < 1 := (y 1).isLt
  rw [View.read_apply]
  show k1_pay1 (F := Ideal) (iblk1 V c 0 t) (iblk1 V c 1 t) y = G (((cfg1.win 2).blk t).view.emb y)
  refine (body1_at V c t y (by omega)).trans ?_
  rw [show ((cfg1.win 2).blk t).view.emb y = ix2 (⟨128 * t.val + (y 0).val, by omega⟩ : Fin 16384) (0 : Fin 1) from
    funext fun a => Fin.ext (by
      match a with
      | ⟨0, _⟩ => show win1_2.index t (0 : Fin 2) * 128 + 1 * (y 0).val = 128 * t.val + (y 0).val; rw [e20]; omega
      | ⟨1, _⟩ => show win1_2.index t (1 : Fin 2) * 1 + 1 * (y 1).val = 0; rw [e21]; omega)]
  exact (hG _ _).symm

/-- An entry of the result array is in point t's block iff its coordinates are in the block's ranges. -/
theorem mem_blk1 (t : Fin cfg1.N) (i : S16384x1.Idx) :
    i ∈ ((cfg1.win 2).blk t).view.set ↔ ∀ a : Fin 2, win1_2.index t a * S128x1.size a ≤ (i a).val
      ∧ (i a).val < win1_2.index t a * S128x1.size a + S128x1.size a := by
  show i ∈ ((View.whole main_v1).slice (win1_2.rect t)).set ↔ _
  rw [View.set_slice_whole, Rect.mem_set_unit]
  exact Iff.rfl

/-- Row r of the result is written back by point r / 128: the 128 blocks tile the array. -/
theorem cover1 (i : S16384x1.Idx) :
    ∃ t : Fin cfg1.N, (cfg1.win 2).flush t = true ∧ i ∈ ((cfg1.win 2).blk t).view.set := by
  have hi0 : (i 0).val < 16384 := (i 0).isLt
  have hi1 : (i 1).val < 1 := (i 1).isLt
  have hN : cfg1.N = 128 := N_1
  obtain ⟨-, -, -, -, e20, e21⟩ := idx1 ⟨(i 0).val / 128, by rw [hN]; omega⟩
  refine ⟨⟨(i 0).val / 128, by rw [hN]; omega⟩, flush1_2 _, ?_⟩
  rw [mem_blk1]
  intro a
  match a with
  | ⟨0, _⟩ =>
    show win1_2.index ⟨(i 0).val / 128, _⟩ (0 : Fin 2) * 128 ≤ (i 0).val
      ∧ (i 0).val < win1_2.index ⟨(i 0).val / 128, _⟩ (0 : Fin 2) * 128 + 128
    rw [e20]; show (i 0).val / 128 * 128 ≤ (i 0).val ∧ (i 0).val < (i 0).val / 128 * 128 + 128; omega
  | ⟨1, _⟩ =>
    show win1_2.index ⟨(i 0).val / 128, _⟩ (1 : Fin 2) * 1 ≤ (i 1).val
      ∧ (i 1).val < win1_2.index ⟨(i 0).val / 128, _⟩ (1 : Fin 2) * 1 + 1
    rw [e21]; omega

/-- After the second call its result array holds, in row j, the distance from point j of the second cloud to the nearest
    point of the first. -/
theorem final1 (c : Dev nD) :
    (dat1 V c).arrAt 2 cfg1.N = asCol (nearest (V c main_arg1) (V c main_arg0)) :=
  (dat1 V c).arrAt_eq_of_cover 2 (asCol (nearest (V c main_arg1) (V c main_arg0)))
    (fun t _ => flushed1 V c t (asCol (nearest (V c main_arg1) (V c main_arg0))) (fun r z => rfl)) cover1
end Cert.Chamfer.Blocks

end
-- ==== Proof.LibConcatSum.lean ====
/-
  A general lemma: nothing here depends on a program.

  SUMMING A TWO-PIECE CONCATENATION. Lay a vector `u` of length `A` and a vector `v` of length `B` end to end into
  one vector of length `A + B`. Its entries, summed over all `A + B` positions, are the entries of `u` summed plus
  the entries of `v` summed: the positions below `A` read `u` at the same position, the positions `A + j` read `v`
  at `j`, and the index range `Fin (A + B)` is the disjoint union of those two families. The values live in any
  commutative additive monoid, so the statement holds for the extended reals as for the naturals.

  `sum_col` is the companion for a column: a sum over the index set of an `A × 1` array is the sum over its `A` rows,
  each read at its one column, because the inner sum over the single column has one term.
-/
import Mathlib.Algebra.BigOperators.Fin
import Idealize.ShloMosaic.Lib.ValueIdx
import Idealize.ShloMosaic.Lib.ValueIdxRank1
import Idealize.ShloMosaic.Lib.Pipeline.Value

open scoped BigOperators

namespace Cert.Lib.ConcatSum
open Idealize.ShloMosaic Idealize.ShloMosaic.ValueIdx

/-- The sum of a two-piece rank-1 concatenation over all its indices is the sum of the first piece plus the sum of
    the second. The sum over the rank-1 index set is taken over its coordinate `k : Fin (A + B)`; that range splits
    into `k = i` with `i < A` (where the concatenation is `u` at `i`) and `k = A + j` with `j < B` (where it is `v`
    at `j`). -/
theorem sum_concat_pair {α : Type} [AddCommMonoid α] {A B C : Nat} (hC : A + B = C)
    (u : (⟨1, ![A]⟩ : Shape).Idx → α) (v : (⟨1, ![B]⟩ : Shape).Idx → α)
    (h : Shape.Concatenates [(⟨1, ![A]⟩ : Shape), ⟨1, ![B]⟩] ⟨1, ![C]⟩ 0) :
    ∑ q : (⟨1, ![C]⟩ : Shape).Idx, concatenate ⟨1, ![C]⟩ 0 [⟨(⟨1, ![A]⟩ : Shape), u⟩, ⟨(⟨1, ![B]⟩ : Shape), v⟩] h q
      = (∑ i : Fin A, u (ix1 i)) + ∑ j : Fin B, v (ix1 j) := by
  subst hC
  -- sum over the coordinate instead of over the index, then split the coordinate's range at `A`
  rw [← Equiv.sum_comp (idxEquiv1 (n := A + B)).symm, Fin.sum_univ_add]
  congr 1
  · -- a coordinate below `A`: the first piece at the same coordinate
    refine Finset.sum_congr rfl fun i _ => ?_
    exact concatenate_pair_apply_left (t := ⟨1, ![A + B]⟩) (s₁ := ⟨1, ![A]⟩) (s₂ := ⟨1, ![B]⟩) 0 u v h _ rfl (ix1 i)
      (fun b => by match b with | ⟨0, _⟩ => rfl)
  · -- the coordinate `A + j`: the second piece at `j`
    refine Finset.sum_congr rfl fun j _ => ?_
    exact concatenate_pair_apply_right (t := ⟨1, ![A + B]⟩) (s₁ := ⟨1, ![A]⟩) (s₂ := ⟨1, ![B]⟩) 0 u v h _ rfl rfl (ix1 j)
      (fun b hb => by match b with | ⟨0, _⟩ => exact absurd rfl hb)
      (Nat.add_comm j.val A)

/-- A sum over the index set of an `A × 1` array is the sum over its rows, each read at column `0`: the double sum
    over rows and columns has a one-term inner sum. -/
theorem sum_col {α : Type} [AddCommMonoid α] {A : Nat} (g : (⟨2, ![A, 1]⟩ : Shape).Idx → α) :
    ∑ q : (⟨2, ![A, 1]⟩ : Shape).Idx, g q = ∑ p : Fin A, g (ix2 p (0 : Fin 1)) := by
  rw [sum_idx2]
  exact Finset.sum_congr rfl fun p _ => Fin.sum_univ_one fun b : Fin 1 => g (ix2 p b)

end Cert.Lib.ConcatSum
-- ==== Proof.KernelValue.lean ====
/-
  The kernel program's scalar result at the ideal values.

  After the two nearest-neighbour calls the program sums each call's column of 16384 distances from 0, adds the two
  sums and divides by 32768.  The first call's column holds the first cloud's nearest-neighbour distances in the
  second, the second call's column the second cloud's in the first (both clouds are unchanged when the second call
  is entered: neither call writes them), and a sum over the index set of a one-column array is the sum over its
  rows; so the scalar the last boundary holds is the Chamfer distance of the two clouds as launched.
-/
import proofs.«107086_j86002425135442_1_alg».proof.Proof.Gen.KernelIdeal.Frame
import proofs.«107086_j86002425135442_1_alg».proof.Proof.Blocks0
import proofs.«107086_j86002425135442_1_alg».proof.Proof.Blocks1
import proofs.«107086_j86002425135442_1_alg».proof.Proof.Spec
import proofs.«107086_j86002425135442_1_alg».proof.Proof.LibConcatSum
import Idealize.ShloMosaic.Lib.StableHlo.Run
import Idealize.ShloMosaic.PureOps.Ideal.Laws

set_option maxRecDepth 16384

noncomputable section

open scoped BigOperators

namespace Cert.Chamfer.KernelValue

open Idealize.ShloMosaic Idealize.ShloMosaic.TcCoe Idealize.ShloMosaic.ValueIdx Idealize.SL.Sem
open Idealize.ShloMosaic.StableHlo
open Cert.KernelIdeal Cert.KernelIdeal.Gen Cert.Chamfer Cert.Chamfer.Blocks

/-- The host's sum of a one-column array of 16384 numbers, from the word 0.0: that word plus the sum of the numbers. -/
theorem total_col (f : Fin 16384 → EReal) (i : S_.Idx) :
    Host.reduceAdd (F := Ideal) (φ := .f32) (asCol f) (constant S_ .f32 0x00000000#32) reducesTo_S16384x1_S_d0_1 h_S_ i
      = Ideal.ofBits .f32 0x00000000#32 + ∑ p : Fin 16384, f p := by
  simp only [Host.reduceAdd, Ideal.hostReduceAdd_def]
  rw [Ideal.hostReduceAdd_total reducesTo_S16384x1_S_d0_1 (fun b => b.elim0)]
  refine congrArg₂ (· + ·) rfl ?_
  exact Cert.Lib.ConcatSum.sum_col (A := 16384) (asCol f)

variable (m : (ℓ : Loc nD τ sig) → Buf (Elt Ideal) ℓ) (ρ : Dev nD → PrngReg)

/-- When the second call is entered the two clouds are as launched. -/
theorem entry1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem entry1_arg1 (c : Dev nD) : V1 m ρ c main_arg1 = m ((c : Thread nD τ).loc main_arg1) :=
  (W1_arr m ρ c 1).trans (((dat0 (V0 m ρ) c).arrAt_in 1 rfl _).trans (A_eq0 (V0 m ρ) c 1))

/-- After both calls the first call's result array still holds its column: the second call does not touch it. -/
theorem col0 (c : Dev nD) : W2 m ρ c (Proc.devRef .tc main_v0)
    = asCol (nearest (m ((c : Thread nD τ).loc main_arg0)) (m ((c : Thread nD τ).loc main_arg1))) := by
  refine (W2_of_ne m ρ c main_v0 (by decide)).trans ?_
  refine (W1_arr m ρ c 2).trans ?_
  exact final0 (V0 m ρ) c

/-- And the second call's result array holds its column. -/
theorem col1 (c : Dev nD) : W2 m ρ c (Proc.devRef .tc main_v1)
    = asCol (nearest (m ((c : Thread nD τ).loc main_arg1)) (m ((c : Thread nD τ).loc main_arg0))) := by
  refine (W2_arr m ρ c 2).trans ?_
  rw [final1 (V1 m ρ) c, entry1_arg0, entry1_arg1]

/-- The scalar result at the last boundary is the Chamfer distance of the clouds as launched. -/
theorem result_eq (c : Dev nD) : W3 m ρ c (Proc.devRef .tc main_v5)
    = fun _ => chamfer (m ((c : Thread nD τ).loc main_arg0)) (m ((c : Thread nD τ).loc main_arg1)) := by
  show StableHlo.after hostOps2 (W2 m ρ c) (Proc.devRef .tc main_v5) = _
  after_results
  rw [col0, col1]
  funext i
  show FloatOps.hostDivf (FloatOps.addf
      (Host.reduceAdd (F := Ideal) (φ := .f32) (asCol _) (constant S_ .f32 0x00000000#32) reducesTo_S16384x1_S_d0_1 h_S_ i)
      (Host.reduceAdd (F := Ideal) (φ := .f32) (asCol _) (constant S_ .f32 0x00000000#32) reducesTo_S16384x1_S_d0_1 h_S_ i))
    (FloatOps.ofBits .f32 0x47000000#32) = _
  rw [total_col, total_col]
  rfl

end Cert.Chamfer.KernelValue

end
-- ==== Proof.RefValue.lean ====
/-
  The reference's result at the ideal values.

  The reference forms sq[i,j] = |a_i|² + |b_j|² − 2·(a·bᵀ)[i,j], takes dists = sqrt (max sq 0), the column
  minima (over i) and the row minima (over j) of dists, joins the two vectors (column minima first), sums the
  32768 entries from 0 and divides by 32768.  Entry (i, j) of dists is the distance of point i of a from point j
  of b; its column minima are b's nearest-neighbour distances in a (by the symmetry of the distance), its row
  minima a's nearest-neighbour distances in b; and the sum of the joined vector is the sum of the two sums, so
  the result is the Chamfer distance of a and b.
-/
import proofs.«107086_j86002425135442_1_alg».proof.Proof.Gen.ReferenceIdeal.Read
import proofs.«107086_j86002425135442_1_alg».proof.Proof.Spec
import proofs.«107086_j86002425135442_1_alg».proof.Proof.LibConcatSum
import Idealize.ShloMosaic.Lib.ValueIdx
import Idealize.ShloMosaic.Lib.ValueIdxRank1
import Idealize.ShloMosaic.Lib.Pipeline.Value
import Idealize.ShloMosaic.PureOps.Ideal.Laws

noncomputable section

open scoped BigOperators

namespace Cert.Chamfer.Ref

open Idealize.ShloMosaic Idealize.ShloMosaic.ValueIdx Cert.ReferenceIdeal Cert.ReferenceIdeal.Read Cert.Chamfer

/-- The distance matrix: entry (i, j) is the distance of point i of a from point j of b. -/
theorem dists_apply (a b : (⟨S16384x64, .f32⟩ : BufTy).Contents (Elt Ideal)) (i j : Fin 16384) :
    val_main_v16 (F := Ideal) a b (ix2 i j) = dist a b i j := by
  rw [val_main_v16_apply, val_main_v15_apply, val_main_v13_apply, val_main_v8_apply, val_main_v6_apply,
    val_main_v2_apply, val_main_v1_apply, val_main_v7_apply, val_main_v5_apply, val_main_v4_apply,
    val_main_v12_apply, val_main_v11_apply, val_main_v10_apply, val_main_v14_apply,
    val_main_cst_apply, val_main_cst_0_apply, val_main_cst_1_apply, val_main_cst_2_apply]
  -- the composed indices, at (i, j): row i of a, row j of b
  have e1 : ∀ k : Fin 64, idx_main_v1 (idx_main_v2 (idx_main_v6 (ix2 i j))) k = ix2 i k := fun k =>
    funext fun c => Fin.ext (by match c with | ⟨0, _⟩ => rfl | ⟨1, _⟩ => rfl)
  have e4 : ∀ k : Fin 64, idx_main_v4 (idx_main_v5 (idx_main_v7 (ix2 i j))) k = ix2 j k := fun k =>
    funext fun c => Fin.ext (by match c with | ⟨0, _⟩ => rfl | ⟨1, _⟩ => rfl)
  have el : ∀ k : Fin 64, lidx_main_v10 (ix2 i j) k = ix2 i k := fun k =>
    funext fun c => Fin.ext (by match c with | ⟨0, _⟩ => rfl | ⟨1, _⟩ => rfl)
  have er : ∀ k : Fin 64, idx_main_v9 (ridx_main_v10 (ix2 i j) k) = ix2 j k := fun k =>
    funext fun c => Fin.ext (by match c with | ⟨0, _⟩ => rfl | ⟨1, _⟩ => rfl)
  simp only [val_main_v0_apply, val_main_v3_apply, val_main_v9_apply, e1, e4, el, er, Ideal.addf_def,
    Ideal.subf_def, Ideal.mulf_def, Ideal.maximumf_def, Ideal.hostUnary_sqrt_def, Ideal.ofBits_def]
  unfold dist normSq inner
  rw [Ideal.ofBits_zero_f32, zero_add, zero_add]

/-- Its column minima are b's nearest-neighbour distances in a; its row minima a's in b. -/
theorem colMin_apply (a b : (⟨S16384x64, .f32⟩ : BufTy).Contents (Elt Ideal)) (j : Fin 16384) :
    val_main_v17 (F := Ideal) a b (ix1 j) = nearest b a j := by
  unfold val_main_v17
  have h : S16384x16384.Reduces [0] S16384 := by decide
  rw [Host.reduce_eq_fold_single FloatOps.minimumf _ _ _ h _ (ix1 j)]
  -- the index over column j whose row is i is (i, j)
  have e : (val_main_v16 (F := Ideal) a b ∘ h.lift (ix1 j)) = fun i : Fin 16384 => dist a b i j :=
    funext fun i => by
      show val_main_v16 (F := Ideal) a b (h.lift (ix1 j) i) = _
      rw [show h.lift (ix1 j) i = ix2 i j from
        funext fun c => Fin.ext (by match c with | ⟨0, _⟩ => rfl | ⟨1, _⟩ => rfl)]
      exact dists_apply a b i j
  rw [e]
  exact nearest_swap a b j

theorem rowMin_apply (a b : (⟨S16384x64, .f32⟩ : BufTy).Contents (Elt Ideal)) (i : Fin 16384) :
    val_main_v18 (F := Ideal) a b (ix1 i) = nearest a b i := by
  unfold val_main_v18
  have h : S16384x16384.Reduces [1] S16384 := by decide
  rw [Host.reduce_eq_fold_single FloatOps.minimumf _ _ _ h _ (ix1 i)]
  -- the index over row i whose column is j is (i, j)
  have e : (val_main_v16 (F := Ideal) a b ∘ h.lift (ix1 i)) = fun j : Fin 16384 => dist a b i j :=
    funext fun j => by
      show val_main_v16 (F := Ideal) a b (h.lift (ix1 i) j) = _
      rw [show h.lift (ix1 i) j = ix2 i j from
        funext fun c => Fin.ext (by match c with | ⟨0, _⟩ => rfl | ⟨1, _⟩ => rfl)]
      exact dists_apply a b i j
  rw [e]
  rfl

/-- The reference's result is the Chamfer distance of its arguments. -/
theorem ref_value (a b : (⟨S16384x64, .f32⟩ : BufTy).Contents (Elt Ideal)) :
    val_main_v21 (F := Ideal) a b = fun _ => chamfer a b := by
  funext q
  rw [val_main_v21_apply, val_main_v20_apply, val_main_cst_5_apply, val_main_cst_6_apply]
  unfold val_main_v19
  -- the joined vector's sum is the column minima's sum plus the row minima's sum
  rw [Cert.Lib.ConcatSum.sum_concat_pair (A := 16384) (B := 16384) (C := 32768) rfl
    (val_main_v17 (F := Ideal) a b) (val_main_v18 (F := Ideal) a b)]
  rw [Finset.sum_congr rfl fun j _ => colMin_apply a b j, Finset.sum_congr rfl fun i _ => rowMin_apply a b i]
  unfold chamfer
  simp only [Ideal.hostDivf_def, Ideal.ofBits_def]
  -- 0 + (S_b + S_a) = (0 + S_a) + (0 + S_b) on the extended reals
  refine congrArg (fun t => Ideal.div t (Ideal.ofBits .f32 0x47000000#32)) ?_
  rw [Ideal.ofBits_zero_f32, zero_add, zero_add, zero_add]
  exact add_comm _ _

end Cert.Chamfer.Ref

end
-- ==== Proof.lean ====
/-
  The Chamfer distance kernel against its jnp reference, over the extended reals.

  The kernel runs one nearest-neighbour pallas_call per direction — for every point of the row cloud, the minimum
  over the column cloud of sqrt (max (|x_i|² + |y_j|² − 2 x_i·y_j, 0)) — and then sums the two columns of 16384
  distances and divides by 32768; the reference forms the whole 16384 × 16384 distance matrix once, takes its
  column minima and its row minima, joins them and takes the mean.  At the ideal values both results are the
  Chamfer distance `Cert.Chamfer.chamfer` of the two clouds (Proof/Spec.lean): the kernel's by reading each call's
  result array block by block (Proof/Payload.lean, Proof/Blocks0.lean, Proof/Blocks1.lean) and the three host
  operations after them (Proof/KernelValue.lean), over the run of the two calls with the result buffer named in its
  post (Proof/KernelRun.lean); the reference's one operation at a time (Proof/RefValue.lean).  The two agree because
  the distance is symmetric and + is commutative on the extended reals; the precondition (finite inputs) is never
  opened.  The ideal pass rewrote nothing, so `preserves` has no conjunct.
-/
import proofs.«107086_j86002425135442_1_alg».proof.Defs
import proofs.«107086_j86002425135442_1_alg».proof.Proof.Gen.Kernel
import proofs.«107086_j86002425135442_1_alg».proof.Proof.Gen.Kernel.Skeleton
import proofs.«107086_j86002425135442_1_alg».proof.Proof.Gen.Kernel.Launch
import proofs.«107086_j86002425135442_1_alg».proof.Proof.Gen.Kernel.Points
import proofs.«107086_j86002425135442_1_alg».proof.Proof.Gen.Kernel.Frame
import proofs.«107086_j86002425135442_1_alg».proof.Proof.Gen.KernelIdeal
import proofs.«107086_j86002425135442_1_alg».proof.Proof.Gen.KernelIdeal.Skeleton
import proofs.«107086_j86002425135442_1_alg».proof.Proof.Gen.KernelIdeal.Launch
import proofs.«107086_j86002425135442_1_alg».proof.Proof.Gen.KernelIdeal.Points
import proofs.«107086_j86002425135442_1_alg».proof.Proof.Gen.KernelIdeal.Frame
import proofs.«107086_j86002425135442_1_alg».proof.Proof.Gen.ReferenceIdeal
import proofs.«107086_j86002425135442_1_alg».proof.Proof.Gen.Pre_finite_inputs
import proofs.«107086_j86002425135442_1_alg».proof.Proof.Gen.ReferenceIdeal.Run
import proofs.«107086_j86002425135442_1_alg».proof.Proof.Gen.ReferenceIdeal.Read
import proofs.«107086_j86002425135442_1_alg».proof.Proof.KernelRun
import proofs.«107086_j86002425135442_1_alg».proof.Proof.KernelValue
import proofs.«107086_j86002425135442_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is a host program: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the Chamfer distance of the two clouds in their result. -/
theorem algebraic : Cert.algebraic_KernelIdeal_ReferenceIdeal := by
  intro m ρ m' ρ' _ hagree
  refine ⟨fun c _ => Cert.Chamfer.chamfer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Chamfer.KernelValue.result_eq m ρ c), (h c).2⟩)
      (Cert.KernelIdeal.Rerun.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v21_eq, Cert.Chamfer.Ref.ref_value, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
